-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S1000x5x512 : Shape := ⟨3, ![1000, 5, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1000x5x512 : S_.BroadcastsInDim S1000x5x512 (![] : Fin 0 → Fin S1000x5x512.rank)
  reducesTo_S1000x5x512_S_d0_1_2 : S1000x5x512.ReducesTo [0, 1, 2] S_

variable [Facts]

def fn {F : FTy → Type} [FloatOps F] (main_arg0 : FVec F S4096x512 .f32) (main_arg1 : FVec F S1000x5x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S1000x5x512 .f32 := Host.absf main_arg1
  let main_cst_0 : FVec F S_ .f32 := constant S_ .f32 0x7F800000#32
  let main_v5 : FVec F S1000x5x512 .f32 := broadcastInDim S1000x5x512 ![] bcast_S_S1000x5x512 main_cst_0
  let main_v6 : IVec S1000x5x512 1 := cmpf .olt main_v4 main_v5
  let main_c_1 : IVec S_ 1 := constantI S_ 1 1#1
  let main_v7 : IVec S_ 1 := (fun x v => Host.reduce IntOp.andi x v reducesTo_S1000x5x512_S_d0_1_2 h_S_) main_v6 main_c_1
  let main_v8 : IVec S_ 1 := andi main_v3 main_v7
  main_v8
-- ==== Kernel.lean ====
abbrev S4096x512 : Shape := ⟨2, ![4096, 512]⟩
abbrev S1000x5x512 : Shape := ⟨3, ![1000, 5, 512]⟩
abbrev S_ : Shape := ⟨0, ![]⟩
abbrev S1024x5x512 : Shape := ⟨3, ![1024, 5, 512]⟩
abbrev S5x512x1024 : Shape := ⟨3, ![5, 512, 1024]⟩
abbrev S4096x1024 : Shape := ⟨2, ![4096, 1024]⟩
abbrev S1024x512 : Shape := ⟨2, ![1024, 512]⟩
abbrev S5x512x256 : Shape := ⟨3, ![5, 512, 256]⟩
abbrev S1024x256 : Shape := ⟨2, ![1024, 256]⟩
abbrev S1024 : Shape := ⟨1, ![1024]⟩
abbrev S1024x1 : Shape := ⟨2, ![1024, 1]⟩
abbrev S1x512x256 : Shape := ⟨3, ![1, 512, 256]⟩
abbrev S512x256 : Shape := ⟨2, ![512, 256]⟩
abbrev S256 : Shape := ⟨1, ![256]⟩
abbrev S1x256 : Shape := ⟨2, ![1, 256]⟩
abbrev S4096x1000 : Shape := ⟨2, ![4096, 1000]⟩

abbrev nBuf : Space → Nat
  | .hbm => 10
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S1000x5x512, .f32⟩
  | .hbm, ⟨2, _⟩ => ⟨S_, .i32⟩
  | .hbm, ⟨3, _⟩ => ⟨S_, .f32⟩
  | .hbm, ⟨4, _⟩ => ⟨S1024x5x512, .f32⟩
  | .hbm, ⟨5, _⟩ => ⟨S5x512x1024, .f32⟩
  | .hbm, ⟨6, _⟩ => ⟨S4096x1024, .f32⟩
  | .hbm, ⟨7, _⟩ => ⟨S4096x1024, .f32⟩
  | .hbm, ⟨8, _⟩ => ⟨S4096x1000, .f32⟩
  | .hbm, ⟨9, _⟩ => ⟨S4096x1000, .f32⟩
  | .local _ .vmem, ⟨0, _⟩ => ⟨S1024x512, .f32⟩
  | .local _ .vmem, ⟨1, _⟩ => ⟨S1024x512, .f32⟩
  | .local _ .vmem, ⟨2, _⟩ => ⟨S5x512x256, .f32⟩
  | .local _ .vmem, ⟨3, _⟩ => ⟨S5x512x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S1000x5x512_S1024x5x512_0240_000_000 : S1000x5x512.Pads (![0, 0, 0] : Fin 3 → Nat) ![24, 0, 0] ![0, 0, 0] S1024x5x512
  h_S_ : 0 < S_.numel
  transposes_S1024x5x512_S5x512x1024_1_2_0 : S1024x5x512.Transposes [1, 2, 0] S5x512x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  reduces_S1024x512_S1024 : S1024x512.Reduces [1] S1024
  shapeCasts_S1024_S1024x1 : S1024.ShapeCasts S1024x1
  inb_S5x512x256_S1x512x256_0_0_0 : ∀ a, (![0, 0, 0] : Fin 3 → Nat) a + S1x512x256.size a ≤ S5x512x256.size a
  h_S1x512x256 : 0 < S1x512x256.numel
  shapeCasts_S1x512x256_S512x256 : S1x512x256.ShapeCasts S512x256
  reduces_S512x256_S256 : S512x256.Reduces [0] S256
  shapeCasts_S256_S1x256 : S256.ShapeCasts S1x256
  broadcasts_S1x256_S1024x256 : S1x256.Broadcasts S1024x256
  broadcasts_S1024x1_S1024x256 : S1024x1.Broadcasts S1024x256
  inb_S5x512x256_S1x512x256_1_0_0 : ∀ a, (![1, 0, 0] : Fin 3 → Nat) a + S1x512x256.size a ≤ S5x512x256.size a
  inb_S5x512x256_S1x512x256_2_0_0 : ∀ a, (![2, 0, 0] : Fin 3 → Nat) a + S1x512x256.size a ≤ S5x512x256.size a
  inb_S5x512x256_S1x512x256_3_0_0 : ∀ a, (![3, 0, 0] : Fin 3 → Nat) a + S1x512x256.size a ≤ S5x512x256.size a
  inb_S5x512x256_S1x512x256_4_0_0 : ∀ a, (![4, 0, 0] : Fin 3 → Nat) a + S1x512x256.size a ≤ S5x512x256.size a
  inb_S1024x256_S1024x256_0_0 : ∀ a, (![0, 0] : Fin 2 → Nat) a + S1024x256.size a ≤ S1024x256.size a
  h_S1024x256 : 0 < S1024x256.numel
  slices_S4096x1024_S4096x1000_0_0 : S4096x1024.Slices ![0, 0] S4096x1000
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x512x256.size a ≤ S5x512x1024.size a
  hwx0_1 : ∀ i : grid0.Coords, EltTy.bits .f32 = 32 ∨ (Rect.block (s := S5x512x1024) S5x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x1024.size a
  hwx0_2 : ∀ i : grid0.Coords, EltTy.bits .f32 = 32 ∨ (Rect.block (s := S4096x1024) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x1024.size a
  hwx0_3 : ∀ i : grid0.Coords, EltTy.bits .f32 = 32 ∨ (Rect.block (s := S4096x1024) S1024x256.size (cc0_transform_3 i) (hinb0_3 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x512 : Shape := ⟨2, ![4096, 512]⟩
abbrev S1000x5x512 : Shape := ⟨3, ![1000, 5, 512]⟩
abbrev S_ : Shape := ⟨0, ![]⟩
abbrev S4096 : Shape := ⟨1, ![4096]⟩
abbrev S1000x5 : Shape := ⟨2, ![1000, 5]⟩
abbrev S4096x1000x5 : Shape := ⟨3, ![4096, 1000, 5]⟩
abbrev S4096x1x1 : Shape := ⟨3, ![4096, 1, 1]⟩
abbrev S1x1000x5 : Shape := ⟨3, ![1, 1000, 5]⟩
abbrev S4096x1000 : Shape := ⟨2, ![4096, 1000]⟩

abbrev nBuf : Space → Nat
  | .hbm => 21
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1000x5x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S1000x5x512, .f32⟩
  | .hbm, ⟨6, _⟩ => ⟨S_, .f32⟩
  | .hbm, ⟨7, _⟩ => ⟨S1000x5, .f32⟩
  | .hbm, ⟨8, _⟩ => ⟨S4096x1000x5, .f32⟩
  | .hbm, ⟨9, _⟩ => ⟨S4096x1x1, .f32⟩
  | .hbm, ⟨10, _⟩ => ⟨S_, .f32⟩
  | .hbm, ⟨11, _⟩ => ⟨S4096x1000x5, .f32⟩
  | .hbm, ⟨12, _⟩ => ⟨S4096x1000x5, .f32⟩
  | .hbm, ⟨13, _⟩ => ⟨S4096x1000x5, .f32⟩
  | .hbm, ⟨14, _⟩ => ⟨S4096x1000x5, .f32⟩
  | .hbm, ⟨15, _⟩ => ⟨S1x1000x5, .f32⟩
  | .hbm, ⟨16, _⟩ => ⟨S4096x1000x5, .f32⟩
  | .hbm, ⟨17, _⟩ => ⟨S4096x1000x5, .f32⟩
  | .hbm, ⟨18, _⟩ => ⟨S_, .f32⟩
  | .hbm, ⟨19, _⟩ => ⟨S4096x1000, .f32⟩
  | .hbm, ⟨20, _⟩ => ⟨S4096x1000, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  reducesTo_S1000x5x512_S1000x5_d2 : S1000x5x512.ReducesTo [2] S1000x5
  bcast_S4096_S4096x1x1_0 : S4096.BroadcastsInDim S4096x1x1 (![0] : Fin 1 → Fin S4096x1x1.rank)
  bcast_S_S4096x1000x5 : S_.BroadcastsInDim S4096x1000x5 (![] : Fin 0 → Fin S4096x1000x5.rank)
  bcast_S4096x1x1_S4096x1000x5_0_1_2 : S4096x1x1.BroadcastsInDim S4096x1000x5 (![0, 1, 2] : Fin 3 → Fin S4096x1000x5.rank)
  bcast_S1000x5_S1x1000x5_1_2 : S1000x5.BroadcastsInDim S1x1000x5 (![1, 2] : Fin 2 → Fin S1x1000x5.rank)
  bcast_S1x1000x5_S4096x1000x5_0_1_2 : S1x1000x5.BroadcastsInDim S4096x1000x5 (![0, 1, 2] : Fin 3 → Fin S4096x1000x5.rank)
  reducesTo_S4096x1000x5_S4096x1000_d2 : S4096x1000x5.ReducesTo [2] S4096x1000
  dot_S4096x512_S1000x5x512_S4096x1000x5_1_2_0_01_n_n_wf : DotDims.WF S4096x512 S1000x5x512 S4096x1000x5 [1] [2] [0] [0, 1] [] []

variable [Facts₀]

def dot_S4096x512_S1000x5x512_S4096x1000x5_1_2_0_01_n_n : DotDims S4096x512 S1000x5x512 S4096x1000x5 where
  lhsContracting := [1]
  rhsContracting := [2]
  lhsNonContracting := [0]
  rhsNonContracting := [0, 1]
  lhsBatch := []
  rhsBatch := []
  wf := dot_S4096x512_S1000x5x512_S4096x1000x5_1_2_0_01_n_n_wf

class Facts : Prop extends Facts₀ where

variable [Facts]
-- ==== Proof.Spec.lean ====
/-
  Squared distances from the rows of `x` (4096 rows of 512 entries) to five prototypes per class (1000 classes), and
  their minimum over the five, as functions on the extended reals.

  For a row `xr` and a prototype `pr p`, the squared distance is expanded as ‖pr p‖² − 2·⟨xr, pr p⟩ + ‖xr‖².  The kernel
  adds the three terms as (‖p‖² − 2⟨x,p⟩) + ‖x‖², the reference as (‖x‖² − 2⟨x,p⟩) + ‖p‖²; on the extended reals addition is
  commutative and associative and a − b is a + (−b), so the two agree without any finiteness assumption.  The minimum over
  the five prototypes is taken by the kernel as a left-nested chain of four binary minima, and by the reference as a fold
  of `min` from +∞ over the five coordinates; `min` is commutative and associative with +∞ neutral, so these agree too.
-/
import Idealize.ShloMosaic.PureOps.Ideal.Laws
import Idealize.ShloMosaic.Lib.ValueIdx

noncomputable section

namespace ProtoDist

open Idealize.ShloMosaic Idealize.ShloMosaic.ValueIdx

/-- The factor of the cross term: the extended real the f32 word of 2.0 denotes.  Both programs carry the same word, so
    it is never evaluated. -/
abbrev two : EReal := Ideal.ofBits .f32 0x40000000#32

/-- ‖p‖² − 2·⟨x,p⟩ + ‖x‖² from the three sums `xs = ‖x‖²`, `ps = ‖p‖²`, `xp = ⟨x,p⟩`, associated as the kernel adds them. -/
def distOf (xs ps xp : EReal) : EReal := (ps - two * xp) + xs

/-- The same three terms added in the reference's order. -/
theorem distOf_eq (xs ps xp : EReal) : distOf xs ps xp = (xs - two * xp) + ps := by
  unfold distOf
  rw [sub_eq_add_neg, sub_eq_add_neg]
  ac_rfl

/-- The minimum of five values, nested to the left. -/
def min5 (f : Fin 5 → EReal) : EReal := min (min (min (min (f 0) (f 1)) (f 2)) (f 3)) (f 4)

/-- A fold of `min` from +∞ over the five coordinates is that minimum. -/
theorem fold_min_top (f : Fin 5 → EReal) : (Finset.univ : Finset (Fin 5)).fold min ⊤ f = min5 f := by
  have h : (Finset.univ : Finset (Fin 5)) = {4, 3, 2, 1, 0} := by decide
  rw [h, Finset.fold_insert (by decide), Finset.fold_insert (by decide), Finset.fold_insert (by decide),
    Finset.fold_insert (by decide), Finset.fold_singleton, min_top_right]
  unfold min5
  ac_rfl

/-- The least squared distance from a row `xr` to the five prototypes `pr 0 … pr 4`. -/
def D (xr : Fin 512 → EReal) (pr : Fin 5 → Fin 512 → EReal) : EReal :=
  min5 fun p => distOf (∑ d : Fin 512, xr d * xr d) (∑ d : Fin 512, pr p d * pr p d) (∑ d : Fin 512, xr d * pr p d)

/-- The least squared distance from row `b` of `x` to the prototypes of class `c`, at index `(b, c)`. -/
def minAt (x : (⟨2, ![4096, 512]⟩ : Shape).Idx → EReal) (P : (⟨3, ![1000, 5, 512]⟩ : Shape).Idx → EReal) :
    (⟨2, ![4096, 1000]⟩ : Shape).Idx → EReal :=
  fun i => D (fun d => x (ix2 (i 0) d)) (fun p d => P (ix3 (i 1) p d))

/-- Its negative. -/
def negAt (x : (⟨2, ![4096, 512]⟩ : Shape).Idx → EReal) (P : (⟨3, ![1000, 5, 512]⟩ : Shape).Idx → EReal) :
    (⟨2, ![4096, 1000]⟩ : Shape).Idx → EReal :=
  fun i => -(minAt x P i)

/-- Zero minus a value is its negative (the kernel negates by subtracting from a zero splat). -/
theorem zero_sub_eq_neg (y : EReal) : Ideal.ofBits .f32 0x00000000#32 - y = -y := by
  rw [Ideal.ofBits_zero_f32, sub_eq_add_neg, zero_add]

/-- The f32 word of +∞ is the top element. -/
theorem ofBits_inf : Ideal.ofBits .f32 0x7F800000#32 = (⊤ : EReal) := by
  simp [Ideal.ofBits, Ideal.ieee]

end ProtoDist

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.LibLanes.lean ====
/-
  A sum over the first axis, read at an index, for any extents: at the extended reals, the sum of an `[a, b]` array over
  its first axis, from the zero accumulator, is at column `c` the plain sum over that column. (The cast of a vector `[b]` to the row
  `[1, b]` and the broadcast of a row `[1, b]` down to `[a, b]` are the library's `shapeCast_a_1a_apply` and
  `broadcastTo_1b_ab_apply`, Lib/ValueLayout.lean.)
-/
import Idealize.ShloMosaic.Lib.Pipeline.Value
import Idealize.ShloMosaic.Lib.ValueIdx
import Idealize.ShloMosaic.PureOps.Ideal.Laws

noncomputable section

namespace Idealize.ShloMosaic.Lanes

open Idealize.ShloMosaic Idealize.ShloMosaic.ValueIdx

/-- At the extended reals a sum of an `[a, b]` array over its first axis, from the zero accumulator, reads at column
    `c` as the sum of the column. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Lanes

end
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.Payload.lean ====
/-
  What the kernel body leaves in its two output blocks, read at a block index (r, q): from the block X of 1024 rows of x
  and the block B of the five prototypes' 256 columns (laid out [5, 512, 256]), the least over p of
  (Σ_d B(p,d,q)² − 2·Σ_d X(r,d)·B(p,d,q)) + Σ_d X(r,d)², and its negative.

  The body computes the same distance block five times, once per prototype, from that prototype's [1, 512, 256] sub-block
  of B, and folds the five with a left-nested minimum; the second output is a zero splat minus the first. So the proof
  names one prototype's distance block as a term, reads it at an index (the two squared norms as a sum along a row and a
  sum down a column, the cross term as a matrix product), reads each sub-block load where it lies in B, and assembles.
-/
import proofs.«148120_j23897198035269_1_alg».proof.Proof.Gen.KernelIdeal.Frame
import proofs.«148120_j23897198035269_1_alg».proof.Proof.Spec
import proofs.«148120_j23897198035269_1_alg».proof.Proof.LibKeepdims
import proofs.«148120_j23897198035269_1_alg».proof.Proof.LibLanes
import proofs.«148120_j23897198035269_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace ProtoDist.Body

open Idealize.ShloMosaic Idealize.ShloMosaic.ValueIdx Cert.KernelIdeal Cert.KernelIdeal.Gen

section
variable {F : FTy → Type} [FloatOps F]

/-- One prototype's block of squared distances: for the row block X and one prototype's columns L (laid out [1, 512, 256]),
    (‖L(·,q)‖² − 2·⟨X(r,·), L(·,q)⟩) + ‖X(r,·)‖² at every (r, q), as the body computes it. -/
def distTerm (X : Vec F S1024x512 .f32) (L : Vec F S1x512x256 .f32) : FVec F S1024x256 .f32 :=
  addf
    (subf
      (broadcastTo S1024x256
        (shapeCast S1x256
          (multiReduction .add [0] S256
            (mulf (shapeCast S512x256 L shapeCasts_S1x512x256_S512x256) (shapeCast S512x256 L shapeCasts_S1x512x256_S512x256))
            0x00000000#32 reduces_S512x256_S256 (.inl rfl) rfl)
          shapeCasts_S256_S1x256)
        broadcasts_S1x256_S1024x256)
      (mulf (broadcast S1024x256 (Scalar.ofBits .f32 0x40000000#32))
        (matmul dot_S1024x512_S512x256_S1024x256_1_0_0_1_n_n none (truncf .bf16 X bitsLt_bf16_f32)
          (truncf .bf16 (shapeCast S512x256 L shapeCasts_S1x512x256_S512x256) bitsLt_bf16_f32)
          (constant S1024x256 .f32 0x00000000#32))))
    (broadcastTo S1024x256
      (shapeCast S1024x1
        (multiReduction .add [1] S1024 (mulf X X) 0x00000000#32 reduces_S1024x512_S1024 (.inl rfl) rfl)
        shapeCasts_S1024_S1024x1)
      broadcasts_S1024x1_S1024x256)

/-- The stored block of minima is the left-nested minimum of the five prototypes' distance blocks. -/
theorem pay7_eq (X : Vec F S1024x512 .f32) (L0 L1 L2 L3 L4 : Vec F S1x512x256 .f32) :
    k0_pay7 (k0_pay1 X) (k0_pay2 X) (k0_pay3 X L0 L1) (k0_pay5 X L2) (k0_pay6 L2) L3 L4
      = minimumf (minimumf (minimumf (minimumf (distTerm X L0) (distTerm X L1)) (distTerm X L2)) (distTerm X L3)) (distTerm X L4) := rfl

/-- The other stored block is a zero splat minus the block of minima. -/
theorem pay8_eq (X : Vec F S1024x512 .f32) (L0 L1 L2 L3 L4 : Vec F S1x512x256 .f32) :
    k0_pay8 (k0_pay1 X) (k0_pay2 X) (k0_pay3 X L0 L1) (k0_pay5 X L2) (k0_pay6 L2) L3 L4
      = subf (broadcast S1024x256 (Scalar.ofBits .f32 0x00000000#32))
          (k0_pay7 (k0_pay1 X) (k0_pay2 X) (k0_pay3 X L0 L1) (k0_pay5 X L2) (k0_pay6 L2) L3 L4) := rfl
end

/-- ‖X(r,·)‖², kept as a column and spread along the row. -/
theorem rowNorm_apply (X : Vec Ideal S1024x512 .f32) (r : Fin 1024) (q : Fin 256) :
    broadcastTo S1024x256
      (shapeCast S1024x1
        (multiReduction (F := Ideal) .add [1] S1024 (mulf X X) 0x00000000#32 reduces_S1024x512_S1024 (.inl rfl) rfl)
        shapeCasts_S1024_S1024x1)
      broadcasts_S1024x1_S1024x256 (ix2 r q) = ∑ d : Fin 512, X (ix2 r d) * X (ix2 r d) := by
  refine (Keepdims.broadcastTo_a1_ab_apply _ _ r q).trans ?_
  refine (Keepdims.shapeCast_a_a1_apply _ _ r 0).trans ?_
  exact Keepdims.laneSum_apply _ _ _ _ _ r

/-- ‖L(·,q)‖², kept as a row and spread down the column. -/
theorem colNorm_apply (L : Vec Ideal S1x512x256 .f32) (r : Fin 1024) (q : Fin 256) :
    broadcastTo S1024x256
        (shapeCast S1x256
          (multiReduction (F := Ideal) .add [0] S256
            (mulf (shapeCast S512x256 L shapeCasts_S1x512x256_S512x256) (shapeCast S512x256 L shapeCasts_S1x512x256_S512x256))
            0x00000000#32 reduces_S512x256_S256 (.inl rfl) rfl)
          shapeCasts_S256_S1x256)
        broadcasts_S1x256_S1024x256 (ix2 r q) = ∑ d : Fin 512, L (ix3 0 d q) * L (ix3 0 d q) := by
  refine (broadcastTo_1b_ab_apply _ _ r q).trans ?_
  refine (shapeCast_a_1a_apply _ _ 0 q).trans ?_
  refine (Lanes.colSum_apply _ _ _ _ _ q).trans ?_
  refine Finset.sum_congr rfl fun d _ => ?_
  rw [mulf_apply, shapeCast_1ab_ab_apply]

/-- ⟨X(r,·), L(·,q)⟩ by the matrix product. -/
theorem cross_apply (X : Vec Ideal S1024x512 .f32) (L : Vec Ideal S1x512x256 .f32) (r : Fin 1024) (q : Fin 256) :
    matmul (F := Ideal) dot_S1024x512_S512x256_S1024x256_1_0_0_1_n_n none (truncf .bf16 X bitsLt_bf16_f32)
        (truncf .bf16 (shapeCast S512x256 L shapeCasts_S1x512x256_S512x256) bitsLt_bf16_f32)
        (constant S1024x256 .f32 0x00000000#32) (ix2 r q) = ∑ d : Fin 512, X (ix2 r d) * L (ix3 0 d q) := by
  refine (PlainDot.matmul_zero_apply 1024 512 256 _ _ (ix2 r q)).trans ?_
  refine Finset.sum_congr rfl fun d _ => ?_
  show X (ix2 r d) * shapeCast S512x256 L shapeCasts_S1x512x256_S512x256 (ix2 d q) = _
  rw [shapeCast_1ab_ab_apply]

/-- One prototype's distance block at an index. -/
theorem distTerm_apply (X : Vec Ideal S1024x512 .f32) (L : Vec Ideal S1x512x256 .f32) (r : Fin 1024) (q : Fin 256) :
    distTerm (F := Ideal) X L (ix2 r q)
      = ProtoDist.distOf (∑ d : Fin 512, X (ix2 r d) * X (ix2 r d)) (∑ d : Fin 512, L (ix3 0 d q) * L (ix3 0 d q))
          (∑ d : Fin 512, X (ix2 r d) * L (ix3 0 d q)) := by
  unfold distTerm ProtoDist.distOf
  rw [addf_apply, subf_apply, mulf_apply, broadcast_apply, rowNorm_apply, colNorm_apply, cross_apply]
  rfl

/-- The zero offsets of a whole-block access, however spelt. -/
theorem zero_off2 : (![0, 0] : Fin 2 → Nat) = fun _ => 0 :=
  funext fun a => by
    match a with
    | ⟨0, _⟩ => rfl
    | ⟨1, _⟩ => rfl

/-- A load of the [1, 512, 256] sub-block at offset (p, 0, 0) of B reads prototype p's columns. -/
theorem ld_block (B : Vec Ideal S5x512x256 .f32) (p : Fin 5)
    (inb : ∀ a, (![p.val, 0, 0] : Fin 3 → Nat) a + S1x512x256.size a ≤ S5x512x256.size a) (d : Fin 512) (q : Fin 256) :
    View.ld B (Rect.unit (s := S5x512x256) ![p.val, 0, 0] S1x512x256.size inb) (ix3 0 d q) = B (ix3 p d q) :=
  congrArg B (funext fun a => Fin.ext (by
    match a with
    | ⟨0, _⟩ => show p.val + 1 * 0 = p.val; omega
    | ⟨1, _⟩ => show 0 + 1 * d.val = d.val; omega
    | ⟨2, _⟩ => show 0 + 1 * q.val = q.val; omega))

/-- Prototype p's distance block, from its sub-block of B, at an index. -/
theorem distTerm_block_apply (X : Vec Ideal S1024x512 .f32) (B : Vec Ideal S5x512x256 .f32) (p : Fin 5)
    (inb : ∀ a, (![p.val, 0, 0] : Fin 3 → Nat) a + S1x512x256.size a ≤ S5x512x256.size a) (r : Fin 1024) (q : Fin 256) :
    distTerm (F := Ideal) X (View.ld B (Rect.unit (s := S5x512x256) ![p.val, 0, 0] S1x512x256.size inb)) (ix2 r q)
      = ProtoDist.distOf (∑ d : Fin 512, X (ix2 r d) * X (ix2 r d)) (∑ d : Fin 512, B (ix3 p d q) * B (ix3 p d q))
          (∑ d : Fin 512, X (ix2 r d) * B (ix3 p d q)) := by
  refine (distTerm_apply X _ r q).trans ?_
  refine congrArg₂ (ProtoDist.distOf _) (Finset.sum_congr rfl fun d _ => ?_) (Finset.sum_congr rfl fun d _ => ?_)
  · exact congrArg₂ (· * ·) (ld_block B p inb d q) (ld_block B p inb d q)
  · exact congrArg (X (ix2 r d) * ·) (ld_block B p inb d q)

/-- The block of least squared distances the body stores. -/
theorem out_min_apply (X : Vec Ideal S1024x512 .f32) (B : Vec Ideal S5x512x256 .f32) (r : Fin 1024) (q : Fin 256) :
    out0_3 (F := Ideal) X B (ix2 r q) = ProtoDist.D (fun d => X (ix2 r d)) (fun p d => B (ix3 p d q)) := by
  unfold out0_3
  rw [View.canon_unit_zero zero_off2, View.ld_unit_zero (S := S1024x512) zero_off2, pay7_eq]
  simp only [minimumf_apply]
  unfold ProtoDist.D ProtoDist.min5
  refine congrArg₂ min (congrArg₂ min (congrArg₂ min (congrArg₂ min ?_ ?_) ?_) ?_) ?_
  · exact distTerm_block_apply X B 0 _ r q
  · exact distTerm_block_apply X B 1 _ r q
  · exact distTerm_block_apply X B 2 _ r q
  · exact distTerm_block_apply X B 3 _ r q
  · exact distTerm_block_apply X B 4 _ r q

/-- The other output block is, entry by entry, zero minus the block of minima. -/
theorem out_neg_eq (X : Vec Ideal S1024x512 .f32) (B : Vec Ideal S5x512x256 .f32) (j : S1024x256.Idx) :
    out0_2 (F := Ideal) X B j = Ideal.ofBits .f32 0x00000000#32 - out0_3 (F := Ideal) X B j := by
  unfold out0_2 out0_3
  rw [View.canon_unit_zero zero_off2, View.canon_unit_zero zero_off2, pay8_eq]
  rfl

/-- The block of their negatives. -/
theorem out_neg_apply (X : Vec Ideal S1024x512 .f32) (B : Vec Ideal S5x512x256 .f32) (r : Fin 1024) (q : Fin 256) :
    out0_2 (F := Ideal) X B (ix2 r q) = -(ProtoDist.D (fun d => X (ix2 r d)) (fun p d => B (ix3 p d q))) := by
  rw [out_neg_eq, out_min_apply]
  exact ProtoDist.zero_sub_eq_neg _

end ProtoDist.Body

end
-- ==== Proof.KernelArrays.lean ====
/-
  The two [4096, 1024] arrays the kernel region writes, as whole-array functions of the arrays the region reads: at (b, k)
  the least over the five prototypes p of (Σ_d Pt(p,d,k)² − 2·Σ_d x(b,d)·Pt(p,d,k)) + Σ_d x(b,d)², and its negative, where Pt is
  the prototype array in the [5, 512, 1024] layout the region is launched on.

  Grid point t = (i, j) reads rows 1024·i … 1024·i + 1023 of x and columns 256·j … 256·j + 255 of Pt, and writes the
  [1024, 256] block (i, j) of each output; the sixteen blocks tile the outputs.
-/
import proofs.«148120_j23897198035269_1_alg».proof.Proof.Gen.KernelIdeal.Frame
import proofs.«148120_j23897198035269_1_alg».proof.Proof.Payload
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace ProtoDist.Arr

open Cert.KernelIdeal Cert.KernelIdeal.Gen

variable (m : (ℓ : Loc nD τ sig) → Buf (Elt Ideal) ℓ)

/-- The least squared distance at (b, k), from x and the prototypes in the [5, 512, 1024] layout. -/
def Gmin (xa : S4096x512.Idx → EReal) (pt : S5x512x1024.Idx → EReal) : S4096x1024.Idx → EReal :=
  fun i => ProtoDist.D (fun d => xa (ix2 (i 0) d)) (fun p d => pt (ix3 p d (i 1)))

/-- Its negative. -/
def Gneg (xa : S4096x512.Idx → EReal) (pt : S5x512x1024.Idx → EReal) : S4096x1024.Idx → EReal :=
  fun i => -(Gmin xa pt i)

/-- The index maps over the grid: the x window follows the output's row block, the prototype window its column block, the
    two outputs move together, and the block indices stay below four. -/
theorem idx_facts : ∀ t : Fin cfg0.N,
    win0_0.index t (0 : Fin 2) = win0_3.index t (0 : Fin 2)
    ∧ win0_0.index t (1 : Fin 2) = 0
    ∧ win0_1.index t (0 : Fin 3) = 0
    ∧ win0_1.index t (1 : Fin 3) = 0
    ∧ win0_1.index t (2 : Fin 3) = win0_3.index t (1 : Fin 2)
    ∧ win0_2.index t (0 : Fin 2) = win0_3.index t (0 : Fin 2)
    ∧ win0_2.index t (1 : Fin 2) = win0_3.index t (1 : Fin 2)
    ∧ win0_3.index t (0 : Fin 2) ≤ 3 ∧ win0_3.index t (1 : Fin 2) ≤ 3 :=
  (by decide +kernel : ∀ t : Fin grid0.N, _)

/-- Every block (i, j) of the outputs is some point's. -/
theorem idx_onto : ∀ (q0 : Fin 4) (q1 : Fin 4), ∃ t : Fin cfg0.N, win0_3.index t = ![q0.val, q1.val] :=
  (by decide +kernel : ∀ (q0 : Fin 4) (q1 : Fin 4), ∃ t : Fin grid0.N, win0_3.index t = ![q0.val, q1.val])

/-- The x block at a point is rows of x: block row r is row 1024·i + r. -/
theorem xblk_apply (c : Dev nD) (t : Fin cfg0.N) (r : Fin 1024) (d : Fin 512) (b : Fin 4096)
    (hb : b.val = win0_3.index t (0 : Fin 2) * 1024 + r.val) :
    iblk m c 0 t (ix2 r d) = V m c main_arg0 (ix2 b d) := by
  obtain ⟨e0, e1, -⟩ := idx_facts t
  show V m c main_arg0 (((cfg0.win 0).blk t).view.emb (ix2 r d)) = _
  refine congrArg (V m c main_arg0) (funext fun a => Fin.ext ?_)
  match a with
  | ⟨0, _⟩ => show win0_0.index t (0 : Fin 2) * 1024 + 1 * r.val = b.val; omega
  | ⟨1, _⟩ => show win0_0.index t (1 : Fin 2) * 512 + 1 * d.val = d.val; omega

/-- The prototype block at a point is columns of Pt: block column q is column 256·j + q. -/
theorem pblk_apply (c : Dev nD) (t : Fin cfg0.N) (p : Fin 5) (d : Fin 512) (q : Fin 256) (k : Fin 1024)
    (hk : k.val = win0_3.index t (1 : Fin 2) * 256 + q.val) :
    iblk m c 1 t (ix3 p d q) = V m c main_v1 (ix3 p d k) := by
  obtain ⟨-, -, e2, e3, e4, -⟩ := idx_facts t
  show V m c main_v1 (((cfg0.win 1).blk t).view.emb (ix3 p d q)) = _
  refine congrArg (V m c main_v1) (funext fun a => Fin.ext ?_)
  match a with
  | ⟨0, _⟩ => show win0_1.index t (0 : Fin 3) * 5 + 1 * p.val = p.val; omega
  | ⟨1, _⟩ => show win0_1.index t (1 : Fin 3) * 512 + 1 * d.val = d.val; omega
  | ⟨2, _⟩ => show win0_1.index t (2 : Fin 3) * 256 + 1 * q.val = k.val; omega

/-- A block of least distances computed from blocks that are rows of `xa` and columns of `pt` is the block of `Gmin xa pt`
    at the same rows and columns. -/
theorem block_min_eq (X : Vec Ideal S1024x512 .f32) (B : Vec Ideal S5x512x256 .f32) (xa : S4096x512.Idx → EReal)
    (pt : S5x512x1024.Idx → EReal) (i0 i1 : Nat)
    (hX : ∀ (r : Fin 1024) (d : Fin 512) (b : Fin 4096), b.val = i0 * 1024 + r.val → X (ix2 r d) = xa (ix2 b d))
    (hB : ∀ (p : Fin 5) (d : Fin 512) (q : Fin 256) (k : Fin 1024), k.val = i1 * 256 + q.val → B (ix3 p d q) = pt (ix3 p d k))
    (j : S1024x256.Idx) (i : S4096x1024.Idx) (h0 : (i 0).val = i0 * 1024 + (j 0).val) (h1 : (i 1).val = i1 * 256 + (j 1).val) :
    out0_3 (F := Ideal) X B j = Gmin xa pt i := by
  obtain ⟨r, q, rfl⟩ : ∃ (r : Fin 1024) (q : Fin 256), j = ix2 r q := ⟨j 0, j 1, eq_ix2 j⟩
  rw [ProtoDist.Body.out_min_apply]
  unfold Gmin
  have eX : (fun d => X (ix2 r d)) = fun d => xa (ix2 (i 0) d) := funext fun d => hX r d (i 0) h0
  have eB : (fun p d => B (ix3 p d q)) = fun p d => pt (ix3 p d (i 1)) := funext fun p => funext fun d => hB p d q (i 1) h1
  rw [eX, eB]

/-- The same for the block of negatives. -/
theorem block_neg_eq (X : Vec Ideal S1024x512 .f32) (B : Vec Ideal S5x512x256 .f32) (xa : S4096x512.Idx → EReal)
    (pt : S5x512x1024.Idx → EReal) (i0 i1 : Nat)
    (hX : ∀ (r : Fin 1024) (d : Fin 512) (b : Fin 4096), b.val = i0 * 1024 + r.val → X (ix2 r d) = xa (ix2 b d))
    (hB : ∀ (p : Fin 5) (d : Fin 512) (q : Fin 256) (k : Fin 1024), k.val = i1 * 256 + q.val → B (ix3 p d q) = pt (ix3 p d k))
    (j : S1024x256.Idx) (i : S4096x1024.Idx) (h0 : (i 0).val = i0 * 1024 + (j 0).val) (h1 : (i 1).val = i1 * 256 + (j 1).val) :
    out0_2 (F := Ideal) X B j = Gneg xa pt i := by
  obtain ⟨r, q, rfl⟩ : ∃ (r : Fin 1024) (q : Fin 256), j = ix2 r q := ⟨j 0, j 1, eq_ix2 j⟩
  rw [ProtoDist.Body.out_neg_apply]
  unfold Gneg Gmin
  have eX : (fun d => X (ix2 r d)) = fun d => xa (ix2 (i 0) d) := funext fun d => hX r d (i 0) h0
  have eB : (fun p d => B (ix3 p d q)) = fun p d => pt (ix3 p d (i 1)) := funext fun p => funext fun d => hB p d q (i 1) h1
  rw [eX, eB]

/-- What point `t` writes back to the array of least distances is block `t` of `Gmin` of the arrays the region reads. -/
theorem flushed_min_eq (c : Dev nD) (t : Fin cfg0.N) :
    (dats m 0 c).flushed 3 t = ((cfg0.win 3).blk t).view.read (Elt Ideal) (Gmin (V m c main_arg0) (V m c main_v1)) := by
  show (cfg0.win 3).cut (grid0.coords t) ((dats m 0 c).after 3 t) = _
  rw [after0_3]
  funext j
  show out0_3 (F := Ideal) (iblk m c 0 t) (iblk m c 1 t) j = Gmin (V m c main_arg0) (V m c main_v1) (((cfg0.win 3).blk t).view.emb j)
  exact block_min_eq (iblk m c 0 t) (iblk m c 1 t) (V m c main_arg0) (V m c main_v1) (win0_3.index t (0 : Fin 2)) (win0_3.index t (1 : Fin 2))
    (fun r d b hb => xblk_apply m c t r d b hb) (fun p d q k hk => pblk_apply m c t p d q k hk) j (((cfg0.win 3).blk t).view.emb j)
    (by show win0_3.index t (0 : Fin 2) * 1024 + 1 * (j 0).val = _; omega)
    (by show win0_3.index t (1 : Fin 2) * 256 + 1 * (j 1).val = _; omega)

/-- What point `t` writes back to the array of negatives is block `t` of `Gneg`. -/
theorem flushed_neg_eq (c : Dev nD) (t : Fin cfg0.N) :
    (dats m 0 c).flushed 2 t = ((cfg0.win 2).blk t).view.read (Elt Ideal) (Gneg (V m c main_arg0) (V m c main_v1)) := by
  obtain ⟨-, -, -, -, -, e5, e6, -⟩ := idx_facts t
  show (cfg0.win 2).cut (grid0.coords t) ((dats m 0 c).after 2 t) = _
  rw [after0_2]
  funext j
  show out0_2 (F := Ideal) (iblk m c 0 t) (iblk m c 1 t) j = Gneg (V m c main_arg0) (V m c main_v1) (((cfg0.win 2).blk t).view.emb j)
  exact block_neg_eq (iblk m c 0 t) (iblk m c 1 t) (V m c main_arg0) (V m c main_v1) (win0_3.index t (0 : Fin 2)) (win0_3.index t (1 : Fin 2))
    (fun r d b hb => xblk_apply m c t r d b hb) (fun p d q k hk => pblk_apply m c t p d q k hk) j (((cfg0.win 2).blk t).view.emb j)
    (by show win0_2.index t (0 : Fin 2) * 1024 + 1 * (j 0).val = _; omega)
    (by show win0_2.index t (1 : Fin 2) * 256 + 1 * (j 1).val = _; omega)

/-- An index of the array of least distances is in point `t`'s block iff each coordinate is in the block's range. -/
theorem mem_blk_min (t : Fin cfg0.N) (i : S4096x1024.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v2_1).slice (win0_3.rect t)).set ↔ _
  rw [View.set_slice_whole, Rect.mem_set_unit]
  exact Iff.rfl

/-- The same for the array of negatives. -/
theorem mem_blk_neg (t : Fin cfg0.N) (i : S4096x1024.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v2_0).slice (win0_2.rect t)).set ↔ _
  rw [View.set_slice_whole, Rect.mem_set_unit]
  exact Iff.rfl

/-- Every index (b, k) of the array of least distances lies in the block (b / 1024, k / 256), which some point writes back. -/
theorem cover_min (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ := idx_onto ⟨(i 0).val / 1024, by omega⟩ ⟨(i 1).val / 256, by omega⟩
  have q0 : win0_3.index t (0 : Fin 2) = (i 0).val / 1024 := congrFun ht 0
  have q1 : win0_3.index t (1 : Fin 2) = (i 1).val / 256 := congrFun ht 1
  refine ⟨t, flush0_3 t, ?_⟩
  rw [mem_blk_min]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 256 ≤ (i 1).val ∧ (i 1).val < win0_3.index t (1 : Fin 2) * 256 + 256; omega

/-- The same for the array of negatives. -/
theorem cover_neg (i : S4096x1024.Idx) : ∃ t : Fin cfg0.N, (cfg0.win 2).flush t = true ∧ i ∈ ((cfg0.win 2).blk t).view.set := by
  have hi0 : (i 0).val < 4096 := (i 0).isLt
  have hi1 : (i 1).val < 1024 := (i 1).isLt
  obtain ⟨t, ht⟩ := idx_onto ⟨(i 0).val / 1024, by omega⟩ ⟨(i 1).val / 256, by omega⟩
  obtain ⟨-, -, -, -, -, e5, e6, -⟩ := idx_facts t
  have q0 : win0_3.index t (0 : Fin 2) = (i 0).val / 1024 := congrFun ht 0
  have q1 : win0_3.index t (1 : Fin 2) = (i 1).val / 256 := congrFun ht 1
  refine ⟨t, flush0_2 t, ?_⟩
  rw [mem_blk_neg]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 256 ≤ (i 1).val ∧ (i 1).val < win0_2.index t (1 : Fin 2) * 256 + 256; omega

/-- After the run the array of least distances holds `Gmin` of the arrays the region reads. -/
theorem final_min (c : Dev nD) : (dats m 0 c).arrAt 3 cfg0.N = Gmin (V m c main_arg0) (V m c main_v1) :=
  (dats m 0 c).arrAt_eq_of_cover 3 (Gmin (V m c main_arg0) (V m c main_v1)) (fun t _ => flushed_min_eq m c t) cover_min

/-- After the run the array of negatives holds `Gneg`. -/
theorem final_neg (c : Dev nD) : (dats m 0 c).arrAt 2 cfg0.N = Gneg (V m c main_arg0) (V m c main_v1) :=
  (dats m 0 c).arrAt_eq_of_cover 2 (Gneg (V m c main_arg0) (V m c main_v1)) (fun t _ => flushed_neg_eq m c t) cover_neg

end ProtoDist.Arr

end
-- ==== Proof.HostSide.lean ====
/-
  The host operations around the kernel region, read at an index.

  Before the region the prototypes [1000, 5, 512] are padded with 24 more classes to [1024, 5, 512] and transposed to
  [5, 512, 1024]: at (p, d, k) with k < 1000 the array the region reads holds prototypes[k, p, d].  (The 24 padded columns
  are cut away again after the region, so their contents never matter.)
-/
import proofs.«148120_j23897198035269_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.KernelVsHost

set_option maxRecDepth 16384

noncomputable section

open Idealize.ShloMosaic Idealize.ShloMosaic.TcCoe Idealize.SL.Sem Idealize.ShloMosaic.ValueIdx Idealize.ShloMosaic.StableHlo

namespace ProtoDist.Host

open Cert.KernelIdeal Cert.KernelIdeal.Gen

variable (m : (ℓ : Loc nD τ sig) → Buf (Elt Ideal) ℓ)

/-- The prototype array the region reads is the transpose of the padded argument. -/
theorem protT_eq (c : Dev nD) : (V m c main_v1 : S5x512x1024.Idx → EReal)
    = transpose S5x512x1024 [1, 2, 0]
        (pad S1024x5x512 ![0, 0, 0] ![24, 0, 0] ![0, 0, 0] (m ((c : Thread nD τ).loc main_arg1))
          (sitofp (F := Ideal) .f32 (constantI S_ 32 0#32)) pads_S1000x5x512_S1024x5x512_0240_000_000 h_S_)
        transposes_S1024x5x512_S5x512x1024_1_2_0 := by
  dsimp only [V, V0]
  simp only [hostOps0, hostOps0_1, hostOps0_2, List.flatten_cons, List.flatten_nil, List.append_nil, List.cons_append, List.nil_append]
  after_results
  rfl

/-- At (p, d, k) with k < 1000 it holds prototypes[k, p, d]. -/
theorem protT_apply (c : Dev nD) (p : Fin 5) (d : Fin 512) (k : Fin 1024) (hk : k.val < 1000) :
    V m c main_v1 (ix3 p d k) = m ((c : Thread nD τ).loc main_arg1) (ix3 (⟨k.val, hk⟩ : Fin 1000) p d) := by
  have e := congrFun (protT_eq m c) (ix3 p d k)
  refine e.trans ?_
  refine (transpose_apply [1, 2, 0] _ transposes_S1024x5x512_S5x512x1024_1_2_0 (ix3 p d k) (ix3 (n0 := 1024) (n1 := 5) (n2 := 512) k p d) (fun b => by
    match b with
    | ⟨0, _⟩ => rfl
    | ⟨1, _⟩ => rfl
    | ⟨2, _⟩ => rfl)).trans ?_
  exact pad_apply_of_inside ![0, 0, 0] ![24, 0, 0] ![0, 0, 0] (m ((c : Thread nD τ).loc main_arg1)) _ pads_S1000x5x512_S1024x5x512_0240_000_000 h_S_
    (ix3 (n0 := 1024) (n1 := 5) (n2 := 512) k p d) (ix3 (⟨k.val, hk⟩ : Fin 1000) p d) (fun a => by
    match a with
    | ⟨0, _⟩ => show k.val = 0 + k.val * (0 + 1); omega
    | ⟨1, _⟩ => show p.val = 0 + p.val * (0 + 1); omega
    | ⟨2, _⟩ => show d.val = 0 + d.val * (0 + 1); omega)

end ProtoDist.Host

end
-- ==== Proof.KernelRun.lean ====
/-
  The kernel program's run, read: after the region the two [4096, 1024] arrays are cut back to their first 1000 columns,
  and the results are the specification's functions of the two arguments — the least squared distance at (b, c) and its
  negative — because column k < 1000 of the transposed, padded prototype array is class k of the argument.
-/
import proofs.«148120_j23897198035269_1_alg».proof.Proof.KernelArrays
import proofs.«148120_j23897198035269_1_alg».proof.Proof.HostSide

set_option maxRecDepth 16384

noncomputable section

open Idealize.ShloMosaic Idealize.ShloMosaic.TcCoe Idealize.SL.Sem Idealize.ShloMosaic.ValueIdx Idealize.ShloMosaic.StableHlo

namespace ProtoDist.Run

open Cert.KernelIdeal Cert.KernelIdeal.Gen

variable (m : (ℓ : Loc nD τ sig) → Buf (Elt Ideal) ℓ) (ρ : Dev nD → PrngReg)

/-- The first 1000 columns of `Gmin xa pt`, when column k < 1000 of `pt` is class k of `P`, are `minAt xa P`. -/
theorem slice_min (A : S4096x1024.Idx → EReal) (xa : S4096x512.Idx → EReal) (pt : S5x512x1024.Idx → EReal)
    (P : S1000x5x512.Idx → EReal) (hA : A = Arr.Gmin xa pt)
    (hP : ∀ (p : Fin 5) (d : Fin 512) (k : Fin 1024) (hk : k.val < 1000), pt (ix3 p d k) = P (ix3 (⟨k.val, hk⟩ : Fin 1000) p d)) :
    extractStridedSlice S4096x1000 ![0, 0] A slices_S4096x1024_S4096x1000_0_0 = ProtoDist.minAt xa P := by
  subst hA
  funext i
  obtain ⟨b, k, rfl⟩ : ∃ (b : Fin 4096) (k : Fin 1000), i = ix2 b k := ⟨i 0, i 1, eq_ix2 i⟩
  have hk : k.val < 1024 := by have := k.isLt; omega
  refine (extractStridedSlice_apply ![0, 0] _ slices_S4096x1024_S4096x1000_0_0 (ix2 b k)
    (ix2 (n0 := 4096) (n1 := 1024) b ⟨k.val, hk⟩) (fun a => by
      match a with
      | ⟨0, _⟩ => show b.val = 0 + b.val; omega
      | ⟨1, _⟩ => show k.val = 0 + k.val; omega)).trans ?_
  unfold Arr.Gmin ProtoDist.minAt
  have eB : (fun (p : Fin 5) (d : Fin 512) => pt (ix3 p d (⟨k.val, hk⟩ : Fin 1024))) = fun p d => P (ix3 k p d) :=
    funext fun p => funext fun d => hP p d ⟨k.val, hk⟩ k.isLt
  exact congrArg (ProtoDist.D fun d => xa (ix2 b d)) eB

/-- The same for the negatives. -/
theorem slice_neg (A : S4096x1024.Idx → EReal) (xa : S4096x512.Idx → EReal) (pt : S5x512x1024.Idx → EReal)
    (P : S1000x5x512.Idx → EReal) (hA : A = Arr.Gneg xa pt)
    (hP : ∀ (p : Fin 5) (d : Fin 512) (k : Fin 1024) (hk : k.val < 1000), pt (ix3 p d k) = P (ix3 (⟨k.val, hk⟩ : Fin 1000) p d)) :
    extractStridedSlice S4096x1000 ![0, 0] A slices_S4096x1024_S4096x1000_0_0 = ProtoDist.negAt xa P := by
  subst hA
  funext i
  have h := congrFun (slice_min (Arr.Gmin xa pt) xa pt P rfl hP) i
  unfold ProtoDist.negAt
  rw [← h]
  rfl

/-- The array of least distances as the lines after the region find it. -/
theorem arr_min (c : Dev nD) :
    Pipeline.withArrays (cfgs 0).spec c (V0 m c) (fun w => (dats m 0 c).arrAt w (cfgs 0).N) (Proc.devRef .tc main_v2_1)
      = Arr.Gmin (V m c main_arg0) (V m c main_v1) :=
  (Pipeline.withArrays_arr spec0 launch0.win.arr_inj c _ _ 3).trans (Arr.final_min m c)

/-- The array of negatives as the lines after the region find it. -/
theorem arr_neg (c : Dev nD) :
    Pipeline.withArrays (cfgs 0).spec c (V0 m c) (fun w => (dats m 0 c).arrAt w (cfgs 0).N) (Proc.devRef .tc main_v2_0)
      = Arr.Gneg (V m c main_arg0) (V m c main_v1) :=
  (Pipeline.withArrays_arr spec0 launch0.win.arr_inj c _ _ 2).trans (Arr.final_neg m c)

/-- The second result: the least squared distances. -/
theorem tail_min (c : Dev nD) : Pipeline.afterTail₀ cfgs (dats m) 0 (V0 m) [hostOps1] c main_v4
    = ProtoDist.minAt (m ((c : Thread nD τ).loc main_arg0)) (m ((c : Thread nD τ).loc main_arg1)) := by
  unfold Pipeline.afterTail₀
  show StableHlo.after hostOps1 _ (Proc.devRef .tc main_v4) = _
  after_results
  exact slice_min _ _ (V m c main_v1) _ ((arr_min m c).trans (by rw [V_main_arg0])) (fun p d k hk => Host.protT_apply m c p d k hk)

/-- The first result: their negatives. -/
theorem tail_neg (c : Dev nD) : Pipeline.afterTail₀ cfgs (dats m) 0 (V0 m) [hostOps1] c main_v3
    = ProtoDist.negAt (m ((c : Thread nD τ).loc main_arg0)) (m ((c : Thread nD τ).loc main_arg1)) := by
  unfold Pipeline.afterTail₀
  show StableHlo.after hostOps1 _ (Proc.devRef .tc main_v3) = _
  after_results
  exact slice_neg _ _ (V m c main_v1) _ ((arr_neg m c).trans (by rw [V_main_arg0])) (fun p d k hk => Host.protT_apply m c p d k hk)

/-- The kernel program's run: both results at the specification's functions of the arguments, the arguments unchanged. -/
theorem run : θ_run defs (onTc (τ := τ) (main (F := Ideal))) ⟨m, fun _ => 0, ρ⟩ fun r => ∀ c : Dev nD,
      r.2.mem ((c.tc : Thread nD τ).loc main_v3) = ProtoDist.negAt (m ((c.tc : Thread nD τ).loc main_arg0)) (m ((c.tc : Thread nD τ).loc main_arg1))
      ∧ r.2.mem ((c.tc : Thread nD τ).loc main_v4) = ProtoDist.minAt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_neg m c),
      ((h c).2 main_v4 (Pipeline.mem_restRefs_of main_v4 (by decide) (by decide))).trans (tail_min m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end ProtoDist.Run

end
-- ==== Proof.RefSide.lean ====
/-
  The reference's two results, read one operation at a time, are the specification's functions: at index (b, c) the fold of
  `min` from +∞ over the five prototypes of (‖x_b‖² − 2⟨x_b, P_{c,p}⟩) + ‖P_{c,p}‖², and its negative.
-/
import proofs.«148120_j23897198035269_1_alg».proof.Proof.Gen.ReferenceIdeal.Run
import proofs.«148120_j23897198035269_1_alg».proof.Proof.Gen.ReferenceIdeal.Read
import proofs.«148120_j23897198035269_1_alg».proof.Proof.Spec

noncomputable section

namespace ProtoDist.Ref

open Idealize.ShloMosaic Idealize.ShloMosaic.ValueIdx Cert.ReferenceIdeal Cert.ReferenceIdeal.Read

/-- The entry of ‖x‖², broadcast to (b, c, p), is read from row b: its k-th summand is at (b, k). -/
theorem idx_xs (b : Fin 4096) (c : Fin 1000) (p : Fin 5) (k : Fin 512) :
    idx_main_v1 (idx_main_v5 (idx_main_v8 (ix3 b c p))) k = ix2 b k :=
  funext fun a => Fin.ext (by match a with | ⟨0, _⟩ => rfl | ⟨1, _⟩ => rfl)

/-- The entry of ‖P‖², broadcast to (b, c, p), is read from prototype (c, p): its k-th summand is at (c, p, k). -/
theorem idx_ps (b : Fin 4096) (c : Fin 1000) (p : Fin 5) (k : Fin 512) :
    idx_main_v3 (idx_main_v10 (idx_main_v11 (ix3 b c p))) k = ix3 c p k :=
  funext fun a => Fin.ext (by match a with | ⟨0, _⟩ => rfl | ⟨1, _⟩ => rfl | ⟨2, _⟩ => rfl)

/-- The k-th factor of ⟨x_b, P_{c,p}⟩ on the left is x at (b, k). -/
theorem idx_l (b : Fin 4096) (c : Fin 1000) (p : Fin 5) (k : Fin 512) :
    lidx_main_v4 (ix3 b c p) k = ix2 b k :=
  funext fun a => Fin.ext (by match a with | ⟨0, _⟩ => rfl | ⟨1, _⟩ => rfl)

/-- The k-th factor of ⟨x_b, P_{c,p}⟩ on the right is P at (c, p, k). -/
theorem idx_r (b : Fin 4096) (c : Fin 1000) (p : Fin 5) (k : Fin 512) :
    ridx_main_v4 (ix3 b c p) k = ix3 c p k :=
  funext fun a => Fin.ext (by match a with | ⟨0, _⟩ => rfl | ⟨1, _⟩ => rfl | ⟨2, _⟩ => rfl)

/-- Before the minimum, the entry at (b, c, p) is (‖x_b‖² − 2⟨x_b, P_{c,p}⟩) + ‖P_{c,p}‖²: each sum starts from 0, and the
    three terms are those of the specification's squared distance, added in the other order. -/
theorem v12_at (x : (⟨S4096x512, .f32⟩ : BufTy).Contents (Elt Ideal)) (P : (⟨S1000x5x512, .f32⟩ : BufTy).Contents (Elt Ideal))
    (b : Fin 4096) (c : Fin 1000) (p : Fin 5) :
    val_main_v12 (F := Ideal) x P (ix3 b c p)
      = ProtoDist.distOf (∑ d : Fin 512, x (ix2 b d) * x (ix2 b d)) (∑ d : Fin 512, P (ix3 c p d) * P (ix3 c p d))
          (∑ d : Fin 512, x (ix2 b d) * P (ix3 c p d)) := by
  rw [ProtoDist.distOf_eq, val_main_v12_apply, val_main_v9_apply, val_main_v8_apply, val_main_v5_apply, val_main_v1_apply,
    val_main_v7_apply, val_main_v6_apply, val_main_cst_1_apply, val_main_v4_apply, val_main_v11_apply, val_main_v10_apply,
    val_main_v3_apply, val_main_cst_apply, val_main_cst_0_apply]
  simp only [idx_xs, idx_ps, idx_l, idx_r, val_main_v0_apply, val_main_v2_apply, Ideal.addf_def, Ideal.subf_def, Ideal.mulf_def,
    Ideal.ofBits_def, Ideal.ofBits_zero_f32, zero_add]

/-- The index (b, c) of the reduced array with the coordinate k put back on the last axis is (b, c, k). -/
theorem lift_at (h : (⟨3, ![4096, 1000, 5]⟩ : Shape).Reduces [2] (⟨2, ![4096, 1000]⟩ : Shape)) (b : Fin 4096) (c : Fin 1000)
    (k : Fin ((⟨3, ![4096, 1000, 5]⟩ : Shape).size 2)) :
    h.lift (ix2 b c) k = ix3 b c (⟨k.val, k.isLt⟩ : Fin 5) :=
  funext fun a => Fin.ext (by match a with | ⟨0, _⟩ => rfl | ⟨1, _⟩ => rfl | ⟨2, _⟩ => rfl)

/-- From +∞ the reduce with a minimum body over the last axis, at (b, c), is the minimum of the five entries (b, c, ·). -/
theorem hostReduce_min_at (y : FVec Ideal ⟨3, ![4096, 1000, 5]⟩ .f32)
    (h' : (⟨3, ![4096, 1000, 5]⟩ : Shape).ReducesTo [2] (⟨2, ![4096, 1000]⟩ : Shape))
    (h : (⟨3, ![4096, 1000, 5]⟩ : Shape).Reduces [2] (⟨2, ![4096, 1000]⟩ : Shape)) (hu : 0 < (⟨0, ![]⟩ : Shape).numel)
    (b : Fin 4096) (c : Fin 1000) :
    Host.reduce FloatOps.minimumf y (constant (⟨0, ![]⟩ : Shape) .f32 0x7F800000#32) h' hu (ix2 b c)
      = ProtoDist.min5 fun p => y (ix3 b c p) := by
  rw [Host.reduce_eq_fold_single FloatOps.minimumf y _ h' h hu]
  refine Eq.trans ?_ (ProtoDist.fold_min_top fun p : Fin 5 => y (ix3 b c p))
  have hf : (y ∘ h.lift (ix2 b c)) = fun k : Fin 5 => y (ix3 b c k) := funext fun k => congrArg y (lift_at h b c k)
  have hi : (constant (⟨0, ![]⟩ : Shape) .f32 0x7F800000#32 (Shape.Idx.first hu) : Ideal .f32) = (⊤ : EReal) :=
    ProtoDist.ofBits_inf
  rw [hf, hi]
  rfl

/-- The reference's minimum over the five prototypes is the specification's. -/
theorem val_min_eq (x : (⟨S4096x512, .f32⟩ : BufTy).Contents (Elt Ideal)) (P : (⟨S1000x5x512, .f32⟩ : BufTy).Contents (Elt Ideal)) :
    val_main_v13 (F := Ideal) x P = ProtoDist.minAt x P := by
  funext i
  obtain ⟨b, c, rfl⟩ : ∃ (b : Fin 4096) (c : Fin 1000), i = ix2 b c := ⟨i 0, i 1, eq_ix2 i⟩
  have e := hostReduce_min_at (val_main_v12 (F := Ideal) x P) Gen.reducesTo_S4096x1000x5_S4096x1000_d2 (by decide) Gen.h_S_ b c
  refine Eq.trans e ?_
  unfold ProtoDist.minAt ProtoDist.D
  exact congrArg ProtoDist.min5 (funext fun p => v12_at x P b c p)

/-- The reference's negated minimum is the specification's. -/
theorem val_neg_eq (x : (⟨S4096x512, .f32⟩ : BufTy).Contents (Elt Ideal)) (P : (⟨S1000x5x512, .f32⟩ : BufTy).Contents (Elt Ideal)) :
    val_main_v14 (F := Ideal) x P = ProtoDist.negAt x P := by
  funext i
  rw [val_main_v14_apply, val_min_eq]
  rfl

end ProtoDist.Ref

end
-- ==== Proof.lean ====
/-
  The kernel computes, for each row x_b of x (4096 rows of 512 entries) and each class c (1000 classes of five prototypes
  P_{c,p}), the least over p of the squared distance ‖x_b − P_{c,p}‖² expanded as ‖P_{c,p}‖² − 2⟨x_b, P_{c,p}⟩ + ‖x_b‖², and
  returns that minimum and its negative; the reference computes the same with the three terms added in another order
  and the minimum taken as a fold from +∞.

  On the extended reals both are the one function `ProtoDist.minAt` (and `ProtoDist.negAt`) of the two arguments
  (Proof/Spec.lean): addition is commutative and associative, subtraction is adding the negative, and `min` is
  commutative and associative with +∞ neutral.  The kernel side is read off its run (Proof/KernelRun.lean: the body's two
  output blocks in Proof/Payload.lean, the sixteen blocks tiling each [4096, 1024] array in Proof/KernelArrays.lean, the
  padding and transposition of the prototypes before the region and the cut back to 1000 columns after it in
  Proof/HostSide.lean and Proof/KernelRun.lean), the reference side off its run one operation at a time
  (Proof/RefSide.lean).  No rewrite was applied to the kernel when it was idealized, so `preserves` is trivial.
-/
import proofs.«148120_j23897198035269_1_alg».proof.Defs
import proofs.«148120_j23897198035269_1_alg».proof.Proof.Gen.Kernel
import proofs.«148120_j23897198035269_1_alg».proof.Proof.Gen.Kernel.Skeleton
import proofs.«148120_j23897198035269_1_alg».proof.Proof.Gen.Kernel.Launch
import proofs.«148120_j23897198035269_1_alg».proof.Proof.Gen.Kernel.Points
import proofs.«148120_j23897198035269_1_alg».proof.Proof.Gen.Kernel.Frame
import proofs.«148120_j23897198035269_1_alg».proof.Proof.Gen.KernelIdeal
import proofs.«148120_j23897198035269_1_alg».proof.Proof.Gen.KernelIdeal.Skeleton
import proofs.«148120_j23897198035269_1_alg».proof.Proof.Gen.KernelIdeal.Launch
import proofs.«148120_j23897198035269_1_alg».proof.Proof.Gen.KernelIdeal.Points
import proofs.«148120_j23897198035269_1_alg».proof.Proof.Gen.KernelIdeal.Frame
import proofs.«148120_j23897198035269_1_alg».proof.Proof.Gen.ReferenceIdeal
import proofs.«148120_j23897198035269_1_alg».proof.Proof.Gen.ReferenceIdeal.Run
import proofs.«148120_j23897198035269_1_alg».proof.Proof.Gen.ReferenceIdeal.Read
import proofs.«148120_j23897198035269_1_alg».proof.Proof.Gen.Pre_finite_inputs
import proofs.«148120_j23897198035269_1_alg».proof.Proof.KernelRun
import proofs.«148120_j23897198035269_1_alg».proof.Proof.RefSide
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- From arguments that agree, both programs end with the negated least squared distances and the least squared
    distances, each the specification's function of the arguments. -/
theorem algebraic : Cert.algebraic_KernelIdeal_ReferenceIdeal := by
  intro m ρ m' ρ' _ hagree
  refine ⟨fun c => ProtoDist.negAt (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => ProtoDist.minAt (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    ProtoDist.Run.run m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · rw [Cert.ReferenceIdeal.Read.val_main_v14_eq, ProtoDist.Ref.val_neg_eq, (hagree c).1, (hagree c).2]
  · rw [Cert.ReferenceIdeal.Read.val_main_v13_eq, ProtoDist.Ref.val_min_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
